-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096 .f32) (main_arg4 : IVec S4096x4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x1024 : Shape := ⟨2, ![4096, 1024]⟩
abbrev S4096 : Shape := ⟨1, ![4096]⟩
abbrev S4096x4096 : Shape := ⟨2, ![4096, 4096]⟩
abbrev S1x4096 : Shape := ⟨2, ![1, 4096]⟩
abbrev S512x1024 : Shape := ⟨2, ![512, 1024]⟩
abbrev S1x512 : Shape := ⟨2, ![1, 512]⟩
abbrev S512 : Shape := ⟨1, ![512]⟩
abbrev S512x1 : Shape := ⟨2, ![512, 1]⟩
abbrev S1024x1024 : Shape := ⟨2, ![1024, 1024]⟩
abbrev S1024x512 : Shape := ⟨2, ![1024, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x4096, .i32⟩
  | .hbm, ⟨5, _⟩ => ⟨S1x4096, .f32⟩
  | .hbm, ⟨6, _⟩ => ⟨S1x4096, .f32⟩
  | .hbm, ⟨7, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1024x1024, .f32⟩
  | .local _ .vmem, ⟨10, _⟩ => ⟨S512x1024, .f32⟩
  | .local _ .vmem, ⟨11, _⟩ => ⟨S512x1024, .f32⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  reduces_S512x1024_S512 : S512x1024.Reduces [1] S512
  shapeCasts_S512_S512x1 : S512.ShapeCasts S512x1
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S4096x4096.size a
  hwx1_3 : ∀ i : grid1.Coords, EltTy.bits .f32 = 32 ∨ (Rect.block (s := S4096x4096) S1024x512.size (cc1_transform_3 i) (hinb1_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096 : Shape := ⟨1, ![4096]⟩
abbrev S4096x4096 : Shape := ⟨2, ![4096, 4096]⟩
abbrev S_ : Shape := ⟨0, ![]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096, .f32⟩
  | .hbm, ⟨4, _⟩ => ⟨S4096x4096, .i32⟩
  | .hbm, ⟨5, _⟩ => ⟨S4096x4096, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096, .f32⟩
  | .hbm, ⟨10, _⟩ => ⟨S1x4096, .f32⟩
  | .hbm, ⟨11, _⟩ => ⟨S4096x4096, .f32⟩
  | .hbm, ⟨12, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x1024_S4096x1024_S4096x4096_1_1_0_0_n_n_wf : DotDims.WF S4096x1024 S4096x1024 S4096x4096 [1] [1] [0] [0] [] []

variable [Facts₀]

def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf

class Facts : Prop extends Facts₀ where

variable [Facts]
-- ==== Proof.LibKeepdims.lean ====
/-
  Two layout operations of a column read at an index, at any extents: a vector of length `a` viewed as an `[a, 1]`
  column (what `keepdims=True` leaves of a sum along the lanes) reads its `i`-th entry at `(i, 0)`; and an `[a, 1]`
  column broadcast along the lanes to `[a, b]` reads, at `(p, c)`, the column's entry of row `p`.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  The two kernel bodies' arithmetic, read at an index over the extended reals.
  The first body multiplies a `[512, 1024]` block of embeddings by the matching block of weights entry by entry, sums
  each row along the lanes, turns the `[512]` sums into a `[1, 512]` row (a column view, then a transpose) and adds
  the bias block: entry `(u, q)` of what it stores is row `q`'s dot product plus the bias block's entry `(u, q)`.
  The second body contracts a `[1024, 1024]` block of hidden states with a `[512, 1024]` block of weights along
  their second axes into a zero accumulator — the change of float format before the product is the identity on
  the extended reals — and adds the `[1, 512]` bias row to every row of the product: entry `(r, s)` is row `r`
  against weight row `s`, plus the bias row's entry `s`.
-/
import proofs.«177538_j40733469836023_1_alg».proof.Proof.Gen.KernelIdeal.Skeleton
import proofs.«177538_j40733469836023_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Idealize.ShloMosaic Idealize.ShloMosaic.ValueIdx Cert.KernelIdeal Cert.KernelIdeal.Gen

/-- A sum along the lanes of a `[512, 1024]` block from the zero word, at row `r`: the sum of that row's entries. -/
theorem laneSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- What the first body stores, at `(u, q)`: row `q`'s dot product of the two loaded blocks, plus the bias block there. -/
theorem rowdot_payload_apply (x0 x1 : Vec Ideal S512x1024 .f32) (x2 : Vec Ideal S1x512 .f32) (u : Fin 1) (q : Fin 512) :
    k0_pay1 (F := Ideal) x0 x1 x2 (ix2 u q) = (∑ k : Fin 1024, x0 (ix2 q k) * x1 (ix2 q k)) + x2 (ix2 u q) := by
  unfold k0_pay1
  refine (addf_apply _ _ _).trans ?_
  refine congrArg₂ (· + ·) ?_ ?_
  · refine (transpose_ix2_apply _ _ u q).trans ?_
    refine (Cert.LibKeepdims.shapeCast_a_a1_apply _ _ q u).trans ?_
    exact laneSum_apply (mulf x0 x1) _ _ _ q
  · exact congrFun (shapeCast_self x2 _) _

/-! The contraction's operand indices: the left operand is read at (the output's row, the contracted index), the right
    at (the output's column, the contracted index). -/

theorem lhs_axis0 (i : S1024x512.Idx) (c : dot_S1024x1024_S512x1024_S1024x512_1_1_0_0_n_n.contr.Idx) :
    (dot_S1024x1024_S512x1024_S1024x512_1_1_0_0_n_n.lhsIdx i c 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_axis1 (i : S1024x512.Idx) (c : dot_S1024x1024_S512x1024_S1024x512_1_1_0_0_n_n.contr.Idx) :
    (dot_S1024x1024_S512x1024_S1024x512_1_1_0_0_n_n.lhsIdx i c 1).val = (c ⟨0, by decide⟩).val :=
  dot_S1024x1024_S512x1024_S1024x512_1_1_0_0_n_n.lhsIdx_val_of_single rfl i c
theorem rhs_axis0 (i : S1024x512.Idx) (c : dot_S1024x1024_S512x1024_S1024x512_1_1_0_0_n_n.contr.Idx) :
    (dot_S1024x1024_S512x1024_S1024x512_1_1_0_0_n_n.rhsIdx i c 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_axis1 (i : S1024x512.Idx) (c : dot_S1024x1024_S512x1024_S1024x512_1_1_0_0_n_n.contr.Idx) :
    (dot_S1024x1024_S512x1024_S1024x512_1_1_0_0_n_n.rhsIdx i c 1).val = (c ⟨0, by decide⟩).val :=
  dot_S1024x1024_S512x1024_S1024x512_1_1_0_0_n_n.rhsIdx_val_of_single rfl i c

/-- The block product into the zero accumulator, at `(r, s)`: row `r` of the left block against row `s` of the right. -/
theorem blockDot_apply (l : FVec Ideal S1024x1024 .bf16) (w : FVec Ideal S512x1024 .bf16) (r : Fin 1024) (s : Fin 512) :
    matmul dot_S1024x1024_S512x1024_S1024x512_1_1_0_0_n_n none l w (constant S1024x512 .f32 0x00000000#32) (ix2 r s)
      = ∑ k : Fin 1024, l (ix2 r k) * w (ix2 s k) := by
  refine (Ideal.matmul_constant_zero_apply dot_S1024x1024_S512x1024_S1024x512_1_1_0_0_n_n none l w (ix2 r s)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 r s) ((contrEquiv1 dot_S1024x1024_S512x1024_S1024x512_1_1_0_0_n_n 1024 rfl rfl).symm k) = ix2 r k := funext fun a => Fin.ext (by
    match a with
    | ⟨0, _⟩ => exact lhs_axis0 _ _
    | ⟨1, _⟩ => exact (lhs_axis1 _ _).trans hk)
  have er : dot_S1024x1024_S512x1024_S1024x512_1_1_0_0_n_n.rhsIdx (ix2 r s) ((contrEquiv1 dot_S1024x1024_S512x1024_S1024x512_1_1_0_0_n_n 1024 rfl rfl).symm k) = ix2 s k := funext fun a => Fin.ext (by
    match a with
    | ⟨0, _⟩ => exact rhs_axis0 _ _
    | ⟨1, _⟩ => exact (rhs_axis1 _ _).trans hk)
  rw [el, er]

/-- What the second body stores, at `(r, s)`: row `r` of the hidden-state block against row `s` of the weight block,
    plus the bias row's entry `s`. -/
theorem matmul_payload_apply (x0 : Vec Ideal S1024x1024 .f32) (x1 : Vec Ideal S512x1024 .f32) (x2 : Vec Ideal S1x512 .f32)
    (r : Fin 1024) (s : Fin 512) :
    k1_pay1 (F := Ideal) x0 x1 x2 (ix2 r s) = (∑ k : Fin 1024, x0 (ix2 r k) * x1 (ix2 s k)) + x2 (ix2 (0 : Fin 1) s) := by
  unfold k1_pay1
  refine (addf_apply _ _ _).trans ?_
  refine congrArg₂ (· + ·) ?_ ?_
  · exact blockDot_apply (truncf .bf16 x0 bitsLt_bf16_f32) (truncf .bf16 x1 bitsLt_bf16_f32) r s
  · refine (broadcastTo_1b_ab_apply _ _ r s).trans ?_
    exact congrFun (shapeCast_self x2 _) _

end Cert.KernelIdeal.Payload

end
-- ==== Proof.Spec.lean ====
/-
  What both programs compute, as one function of the argument arrays, index by index over the extended reals:
  for a batch row `p` and a label `q`,
      logits (p, q) = (∑ k, X (p, k) · W (q, k)) + ((∑ k, E (q, k) · W (q, k)) + b q),
  the matrix product of the rows of `X` with the rows of `W`, plus, per label, the dot product of that label's
  embedding row with its weight row and the label's bias. No law beyond `0 + s = s` joins the two programs: both
  group the three terms in exactly this way, so nothing here depends on the inputs being finite.
-/
import Idealize.ShloMosaic.PureOps.Ideal
import Idealize.ShloMosaic.Lib.ValueIdx

noncomputable section

namespace Cert.Spec

open Idealize.ShloMosaic Idealize.ShloMosaic.ValueIdx

/-- The hidden-state matrices: 4096 rows of 1024 features. -/
abbrev SMat : Shape := ⟨2, ![4096, 1024]⟩
/-- The bias vector, one entry per label. -/
abbrev SVec : Shape := ⟨1, ![4096]⟩
/-- The per-label term laid out as one row. -/
abbrev SRow : Shape := ⟨2, ![1, 4096]⟩
/-- The logits: batch rows by labels. -/
abbrev SOut : Shape := ⟨2, ![4096, 4096]⟩

/-- Label `q`'s own dot product: its embedding row against its weight row. -/
def rowDot (E W : SMat.Idx → EReal) (q : Fin 4096) : EReal := ∑ k : Fin 1024, E (ix2 q k) * W (ix2 q k)

/-- Batch row `p` against label `q`'s weight row. -/
def crossDot (X W : SMat.Idx → EReal) (p q : Fin 4096) : EReal := ∑ k : Fin 1024, X (ix2 p k) * W (ix2 q k)

/-- The per-label term as a `[1, 4096]` row over a bias already laid out as such a row: entry `(u, q)` is label `q`'s
    dot product plus the bias row's entry there. -/
def biasRow (E W : SMat.Idx → EReal) (b2 : SRow.Idx → EReal) : SRow.Idx → EReal := fun i => rowDot E W (i 1) + b2 i

/-- The logits over a per-label row `d`: the cross product plus the row's entry at the label. -/
def logitsOver (X W : SMat.Idx → EReal) (d : SRow.Idx → EReal) : SOut.Idx → EReal :=
  fun i => crossDot X W (i 0) (i 1) + d (ix2 (0 : Fin 1) (i 1))

/-- The logits as a function of the four float arguments. -/
def logits (X E W : SMat.Idx → EReal) (b : SVec.Idx → EReal) : SOut.Idx → EReal :=
  fun i => crossDot X W (i 0) (i 1) + (rowDot E W (i 1) + b (ix1 (i 1)))

/-- Over the bias row built from a bias vector re-laid as `[1, 4096]` (entry `(u, q)` the vector's entry `q`), the two
    stages compose to `logits`. -/
theorem logitsOver_biasRow (X E W : SMat.Idx → EReal) (b : SVec.Idx → EReal) (b2 : SRow.Idx → EReal)
    (hb : ∀ (u : Fin 1) (q : Fin 4096), b2 (ix2 u q) = b (ix1 q)) :
    logitsOver X W (biasRow E W b2) = logits X E W b := by
  funext i
  exact congrArg (fun t => crossDot X W (i 0) (i 1) + (rowDot E W (i 1) + t)) (hb 0 (i 1))

end Cert.Spec

end
-- ==== Proof.Region0.lean ====
/-
  The first region's result array. Its grid has 8 points; point `t` reads rows `512 t … 512 t + 511` of the embedding and
  weight matrices (all 1024 columns) and columns `512 t … 512 t + 511` of the `[1, 4096]` bias row, and writes back the same
  columns of the result row: entry `(u, 512 t + q)` is row `512 t + q`'s dot product plus the bias row there. The 8 blocks
  tile the row, so the array ends as `Spec.biasRow` of the three arrays as the region finds them — whatever those are.
-/
import proofs.«177538_j40733469836023_1_alg».proof.Proof.Gen.KernelIdeal.Frame
import proofs.«177538_j40733469836023_1_alg».proof.Proof.Payload
import proofs.«177538_j40733469836023_1_alg».proof.Proof.Spec

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid: the matrices' blocks move down the rows with the point, the two rows' blocks
    along the columns. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- What point `t` writes back is block `t` of the bias row of the arrays as the region finds them. -/
theorem flushed_eq (c : Dev nD) (t : Fin cfg0.N) :
    (dat0 V c).flushed 3 t
      = ((cfg0.win 3).blk t).view.read (Elt Ideal) (Cert.Spec.biasRow (V c main_arg1) (V c main_arg2) (V c main_v0)) := by
  show (cfg0.win 3).cut (grid0.coords t) ((dat0 V c).after 3 t) = _
  rw [after0_3]
  unfold out0_3
  rw [View.canon_unit_zero zeros2]
  simp only [View.ld_unit_zero (S := S512x1024) zeros2, View.ld_unit_zero (S := S1x512) zeros2]
  obtain ⟨e00, e01, e10, e11, e20, e21, e30, e31⟩ := idx_facts t
  funext j
  obtain ⟨u, q, rfl⟩ : ∃ (u : Fin 1) (q : Fin 512), j = ix2 u q := ⟨j 0, j 1, eq_ix2 j⟩
  refine (Payload.rowdot_payload_apply _ _ _ u q).trans ?_
  show _ = Cert.Spec.rowDot (V c main_arg1) (V c main_arg2) ((((cfg0.win 3).blk t).view.emb (ix2 u q)) 1)
      + V c main_v0 (((cfg0.win 3).blk t).view.emb (ix2 u q))
  unfold Cert.Spec.rowDot
  refine congrArg₂ (· + ·) (Finset.sum_congr rfl fun k _ => congrArg₂ (· * ·) ?_ ?_) ?_
  · show V c main_arg1 (((cfg0.win 0).blk t).view.emb (ix2 q k)) = _
    refine congrArg (V c main_arg1) (funext fun a => Fin.ext ?_)
    match a with
    | ⟨0, _⟩ => show win0_0.index t (0 : Fin 2) * 512 + 1 * q.val = win0_3.index t (1 : Fin 2) * 512 + 1 * q.val; omega
    | ⟨1, _⟩ => show win0_0.index t (1 : Fin 2) * 1024 + 1 * k.val = k.val; omega
  · show V c main_arg2 (((cfg0.win 1).blk t).view.emb (ix2 q k)) = _
    refine congrArg (V c main_arg2) (funext fun a => Fin.ext ?_)
    match a with
    | ⟨0, _⟩ => show win0_1.index t (0 : Fin 2) * 512 + 1 * q.val = win0_3.index t (1 : Fin 2) * 512 + 1 * q.val; omega
    | ⟨1, _⟩ => show win0_1.index t (1 : Fin 2) * 1024 + 1 * k.val = k.val; omega
  · show V c main_v0 (((cfg0.win 2).blk t).view.emb (ix2 u q)) = _
    refine congrArg (V c main_v0) (funext fun a => Fin.ext ?_)
    match a with
    | ⟨0, _⟩ => show win0_2.index t (0 : Fin 2) * 1 + 1 * u.val = win0_3.index t (0 : Fin 2) * 1 + 1 * u.val; omega
    | ⟨1, _⟩ => show win0_2.index t (1 : Fin 2) * 512 + 1 * q.val = win0_3.index t (1 : Fin 2) * 512 + 1 * q.val; omega

/-- An index of the row is in point `t`'s block iff each coordinate is in the block's range on its axis. -/
theorem mem_blk (t : Fin cfg0.N) (i : S1x4096.Idx) :
    i ∈ ((cfg0.win 3).blk t).view.set
      ↔ ∀ a : Fin 2, win0_3.index t a * S1x512.size a ≤ (i a).val ∧ (i a).val < win0_3.index t a * S1x512.size a + S1x512.size a := by
  show i ∈ ((View.whole main_v1).slice (win0_3.rect t)).set ↔ _
  rw [View.set_slice_whole, Rect.mem_set_unit]
  exact Iff.rfl

/-- Every column of the row lies in the block of the point `column / 512`. -/
theorem cover (i : S1x4096.Idx) :
    ∃ t : Fin cfg0.N, (cfg0.win 3).flush t = true ∧ i ∈ ((cfg0.win 3).blk t).view.set := by
  have hi0 : (i 0).val < 1 := (i 0).isLt
  have hi1 : (i 1).val < 4096 := (i 1).isLt
  have hN : grid0.N = 8 := N_0
  let t : Fin cfg0.N := ⟨(i 1).val / 512, by show (i 1).val / 512 < grid0.N; omega⟩
  obtain ⟨-, -, -, -, -, -, e30, e31⟩ := idx_facts t
  have ht : t.val = (i 1).val / 512 := rfl
  refine ⟨t, flush0_3 t, ?_⟩
  rw [mem_blk]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 512 ≤ (i 1).val ∧ (i 1).val < win0_3.index t (1 : Fin 2) * 512 + 512; omega

/-- The result row after the region: the bias row of the arrays as the region finds them. -/
theorem final (c : Dev nD) :
    (dat0 V c).arrAt 3 cfg0.N = Cert.Spec.biasRow (V c main_arg1) (V c main_arg2) (V c main_v0) :=
  (dat0 V c).arrAt_eq_of_cover 3 _ (fun t _ => flushed_eq V c t) cover

end Cert.KernelIdeal.Region0

end
-- ==== Proof.Region1.lean ====
/-
  The second region's result array. Its grid is 4 by 8; point `t` (row-major: `t / 8` down the batch, `t % 8` along the
  labels) reads rows `1024 (t / 8) …` of the hidden states, rows `512 (t % 8) …` of the weights and columns `512 (t % 8) …` of
  the per-label row, and writes back the `[1024, 512]` block of logits at those rows and columns: entry `(r, s)` of the
  block is the hidden-state row against the weight row, plus the per-label row's entry. The 32 blocks tile the
  `[4096, 4096]` array, so it ends as `Spec.logitsOver` of the three arrays as the region finds them — whatever those are.
-/
import proofs.«177538_j40733469836023_1_alg».proof.Proof.Gen.KernelIdeal.Frame
import proofs.«177538_j40733469836023_1_alg».proof.Proof.Payload
import proofs.«177538_j40733469836023_1_alg».proof.Proof.Spec

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl

/-- The printed index maps over the grid, in terms of the point's number: the hidden states' block follows the grid's
    first coordinate, the weights' and the per-label row's the second, the output's both. -/
theorem idx_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = 0 ∧ win1_2.index t (1 : Fin 2) = t.val % 8
    ∧ win1_3.index t (0 : Fin 2) = t.val / 8 ∧ win1_3.index t (1 : Fin 2) = t.val % 8 :=
  (by decide +kernel : ∀ t : Fin grid1.N, _)

/-- What point `t` writes back is block `t` of the logits over the arrays as the region finds them. -/
theorem flushed_eq (c : Dev nD) (t : Fin cfg1.N) :
    (dat1 V c).flushed 3 t
      = ((cfg1.win 3).blk t).view.read (Elt Ideal) (Cert.Spec.logitsOver (V c main_arg0) (V c main_arg2) (V c main_v1)) := by
  show (cfg1.win 3).cut (grid1.coords t) ((dat1 V c).after 3 t) = _
  rw [after1_3]
  unfold out1_3
  rw [View.canon_unit_zero zeros2]
  simp only [View.ld_unit_zero (S := S1024x1024) zeros2, View.ld_unit_zero (S := S512x1024) zeros2,
    View.ld_unit_zero (S := S1x512) zeros2]
  obtain ⟨e00, e01, e10, e11, e20, e21, e30, e31⟩ := idx_facts t
  funext j
  obtain ⟨r, s, rfl⟩ : ∃ (r : Fin 1024) (s : Fin 512), j = ix2 r s := ⟨j 0, j 1, eq_ix2 j⟩
  refine (Payload.matmul_payload_apply _ _ _ r s).trans ?_
  show _ = Cert.Spec.crossDot (V c main_arg0) (V c main_arg2) ((((cfg1.win 3).blk t).view.emb (ix2 r s)) 0)
        ((((cfg1.win 3).blk t).view.emb (ix2 r s)) 1)
      + V c main_v1 (ix2 (0 : Fin 1) ((((cfg1.win 3).blk t).view.emb (ix2 r s)) 1))
  unfold Cert.Spec.crossDot
  refine congrArg₂ (· + ·) (Finset.sum_congr rfl fun k _ => congrArg₂ (· * ·) ?_ ?_) ?_
  · show V c main_arg0 (((cfg1.win 0).blk t).view.emb (ix2 r k)) = _
    refine congrArg (V c main_arg0) (funext fun a => Fin.ext ?_)
    match a with
    | ⟨0, _⟩ => show win1_0.index t (0 : Fin 2) * 1024 + 1 * r.val = win1_3.index t (0 : Fin 2) * 1024 + 1 * r.val; omega
    | ⟨1, _⟩ => show win1_0.index t (1 : Fin 2) * 1024 + 1 * k.val = k.val; omega
  · show V c main_arg2 (((cfg1.win 1).blk t).view.emb (ix2 s k)) = _
    refine congrArg (V c main_arg2) (funext fun a => Fin.ext ?_)
    match a with
    | ⟨0, _⟩ => show win1_1.index t (0 : Fin 2) * 512 + 1 * s.val = win1_3.index t (1 : Fin 2) * 512 + 1 * s.val; omega
    | ⟨1, _⟩ => show win1_1.index t (1 : Fin 2) * 1024 + 1 * k.val = k.val; omega
  · show V c main_v1 (((cfg1.win 2).blk t).view.emb (ix2 (0 : Fin 1) s)) = _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 512 + 1 * s.val = win1_3.index t (1 : Fin 2) * 512 + 1 * s.val; omega

/-- An index of the array is in point `t`'s block iff each coordinate is in the block's range on its axis. -/
theorem mem_blk (t : Fin cfg1.N) (i : S4096x4096.Idx) :
    i ∈ ((cfg1.win 3).blk t).view.set
      ↔ ∀ a : Fin 2, win1_3.index t a * S1024x512.size a ≤ (i a).val ∧ (i a).val < win1_3.index t a * S1024x512.size a + S1024x512.size a := by
  show i ∈ ((View.whole main_v2).slice (win1_3.rect t)).set ↔ _
  rw [View.set_slice_whole, Rect.mem_set_unit]
  exact Iff.rfl

/-- Entry `(p, q)` lies in the block of the point `8 (p / 1024) + q / 512`. -/
theorem cover (i : S4096x4096.Idx) :
    ∃ t : Fin cfg1.N, (cfg1.win 3).flush t = true ∧ i ∈ ((cfg1.win 3).blk t).view.set := by
  have hi0 : (i 0).val < 4096 := (i 0).isLt
  have hi1 : (i 1).val < 4096 := (i 1).isLt
  have hN : grid1.N = 32 := N_1
  let t : Fin cfg1.N := ⟨(i 0).val / 1024 * 8 + (i 1).val / 512, by show (i 0).val / 1024 * 8 + (i 1).val / 512 < grid1.N; omega⟩
  obtain ⟨-, -, -, -, -, -, e30, e31⟩ := idx_facts t
  have ht : t.val = (i 0).val / 1024 * 8 + (i 1).val / 512 := rfl
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The logits array after the region: the logits over the arrays as the region finds them. -/
theorem final (c : Dev nD) :
    (dat1 V c).arrAt 3 cfg1.N = Cert.Spec.logitsOver (V c main_arg0) (V c main_arg2) (V c main_v1) :=
  (dat1 V c).arrAt_eq_of_cover 3 _ (fun t _ => flushed_eq V c t) cover

end Cert.KernelIdeal.Region1

end
-- ==== Proof.KernelValue.lean ====
/-
  The kernel's result array as a function of the launch memory. The run's buffer contents are a fold through @main:
  the host's re-laying of the bias vector as a `[1, 4096]` row, then the first region's arrays at what its write-backs
  leave, then the second region's. Read backwards: the logits array is the second region's result over the hidden
  states, the weights and the per-label row as that region finds them; the hidden states and the weights are still as
  launched (no host operation and no region writes an argument), and the per-label row is the first region's result
  over the embeddings, the weights and the re-laid bias. Together: `Spec.logits` of the four float arguments.
-/
import proofs.«177538_j40733469836023_1_alg».proof.Proof.Gen.KernelIdeal.Frame
import proofs.«177538_j40733469836023_1_alg».proof.Proof.Region0
import proofs.«177538_j40733469836023_1_alg».proof.Proof.Region1
import Idealize.ShloMosaic.Lib.ValueLayout
import Idealize.ShloMosaic.Lib.StableHlo.Run

set_option maxRecDepth 16384

noncomputable section

namespace Cert.KernelIdeal.KernelValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg)

/-- The second region finds the hidden states as launched: it only reads them, so its exit contents there are its
    entry contents, and the exit contents are the launch's. -/
theorem entry1_hidden (c : Dev nD) : V2 m ρ c main_arg0 = m ((c : Thread nD τ).loc main_arg0) :=
  ((W3_arr m ρ c 0).trans (((dat1 (V2 m ρ) c).arrAt_in 0 rfl _).trans (A_eq1 (V2 m ρ) c 0))).symm.trans (W3_main_arg0 m ρ c)

/-- The second region finds the weights as launched. -/
theorem entry1_weights (c : Dev nD) : V2 m ρ c main_arg2 = m ((c : Thread nD τ).loc main_arg2) :=
  ((W3_arr m ρ c 1).trans (((dat1 (V2 m ρ) c).arrAt_in 1 rfl _).trans (A_eq1 (V2 m ρ) c 1))).symm.trans (W3_main_arg2 m ρ c)

/-- The first region finds the embeddings as launched: it only reads them, and the second region does not touch them. -/
theorem entry0_embed (c : Dev nD) : V1 m ρ c main_arg1 = m ((c : Thread nD τ).loc main_arg1) :=
  ((W2_arr m ρ c 0).trans (((dat0 (V1 m ρ) c).arrAt_in 0 rfl _).trans (A_eq0 (V1 m ρ) c 0))).symm.trans
    ((W3_of_ne m ρ c main_arg1 (by decide)).symm.trans (W3_main_arg1 m ρ c))

/-- The first region finds the weights as launched. -/
theorem entry0_weights (c : Dev nD) : V1 m ρ c main_arg2 = m ((c : Thread nD τ).loc main_arg2) :=
  ((W2_arr m ρ c 1).trans (((dat0 (V1 m ρ) c).arrAt_in 1 rfl _).trans (A_eq0 (V1 m ρ) c 1))).symm.trans (entry1_weights m ρ c)

/-- The first region finds, as its bias row, the host's re-laying of the bias vector. -/
theorem entry0_bias (c : Dev nD) :
    V1 m ρ c main_v0 = shapeCast S1x4096 (m ((c : Thread nD τ).loc main_arg3)) shapeCasts_S4096_S1x4096 := by
  show StableHlo.after hostOps0 (W0 m ρ c) (Proc.devRef .tc main_v0) = _
  after_results
  rfl

/-- The second region finds, as its per-label row, the first region's result. -/
theorem entry1_row (c : Dev nD) :
    V2 m ρ c main_v1 = Cert.Spec.biasRow (m ((c : Thread nD τ).loc main_arg1)) (m ((c : Thread nD τ).loc main_arg2))
      (shapeCast S1x4096 (m ((c : Thread nD τ).loc main_arg3)) shapeCasts_S4096_S1x4096) := by
  have h := (W2_arr m ρ c 3).trans (Region0.final (V1 m ρ) c)
  rw [entry0_embed, entry0_weights, entry0_bias] at h
  exact h

/-- The logits array at the run's last contents is the specification of the four float arguments as launched. -/
theorem result (c : Dev nD) :
    W3 m ρ c (Proc.devRef .tc main_v2)
      = Cert.Spec.logits (m ((c : Thread nD τ).loc main_arg0)) (m ((c : Thread nD τ).loc main_arg1))
          (m ((c : Thread nD τ).loc main_arg2)) (m ((c : Thread nD τ).loc main_arg3)) := by
  have h := (W3_arr m ρ c 3).trans (Region1.final (V2 m ρ) c)
  rw [entry1_hidden, entry1_weights, entry1_row] at h
  refine h.trans (Cert.Spec.logitsOver_biasRow _ _ _ _ _ fun u q => ?_)
  exact shapeCast_a_1a_apply _ _ u q

end Cert.KernelIdeal.KernelValue

end
-- ==== Proof.RefValue.lean ====
/-
  The reference's result is `Spec.logits` of its arguments: its einsum is the cross product, its multiply-and-sum
  along the last axis from the zero word is each label's own dot product (`0 + s = s`), to which it adds the bias, and
  its two broadcasts carry that per-label term to every batch row.
-/
import proofs.«177538_j40733469836023_1_alg».proof.Proof.Gen.ReferenceIdeal.Read
import proofs.«177538_j40733469836023_1_alg».proof.Proof.Spec

noncomputable section

namespace Cert.ReferenceIdeal.RefValue

open Idealize.ShloMosaic Idealize.ShloMosaic.ValueIdx Cert.ReferenceIdeal Cert.ReferenceIdeal.Read

/-- The last stage of the reference, index by index, is the specification. -/
theorem result_eq (x0 x1 x2 : FVec Ideal S4096x1024 .f32) (x3 : FVec Ideal S4096 .f32) :
    val_main_v6 (F := Ideal) x0 x1 x2 x3 = Cert.Spec.logits x0 x1 x2 x3 := by
  funext i
  have eL : ∀ k : Fin 1024, lidx_main_v0 i k = ix2 (i 0) k := fun k =>
    funext fun a => Fin.ext (by match a with | ⟨0, _⟩ => rfl | ⟨1, _⟩ => rfl)
  have eR : ∀ k : Fin 1024, ridx_main_v0 i k = ix2 (i 1) k := fun k =>
    funext fun a => Fin.ext (by match a with | ⟨0, _⟩ => rfl | ⟨1, _⟩ => rfl)
  have eS : ∀ k : Fin 1024, idx_main_v2 (idx_main_v4 (idx_main_v5 i)) k = ix2 (i 1) k := fun k =>
    funext fun a => Fin.ext (by match a with | ⟨0, _⟩ => rfl | ⟨1, _⟩ => rfl)
  have eB : idx_main_v4 (idx_main_v5 i) = ix1 (i 1) :=
    funext fun a => Fin.ext (by match a with | ⟨0, _⟩ => rfl)
  rw [val_main_v6_apply, val_main_v0_apply, val_main_v5_apply, val_main_v4_apply, val_main_v3_apply, val_main_v2_apply]
  simp only [val_main_v1_apply, val_main_cst_apply, eL, eR, eS, eB, Ideal.addf_def, Ideal.mulf_def, Ideal.ofBits_def,
    Ideal.ofBits_zero_f32, zero_add]
  rfl

end Cert.ReferenceIdeal.RefValue

end
-- ==== Proof.lean ====
/-
  Label-wise logits: for hidden states `X`, label embeddings `E`, classifier weights `W` (each `[4096, 1024]`) and a bias
  `b` (`[4096]`), both programs compute, for a batch row `p` and a label `q`,
      (∑ k, X (p, k) · W (q, k)) + ((∑ k, E (q, k) · W (q, k)) + b q).
  The kernel does it in two gridded regions: the first writes the per-label term as a `[1, 4096]` row (a row-wise product
  of embeddings and weights summed along the lanes, re-laid as a row, plus the bias re-laid as a row by the host), the
  second contracts blocks of `X` with blocks of `W` into a zero accumulator and adds that row to every row of the
  product. The reference is an einsum, a multiply-and-sum from zero, an add and two broadcasts. Over the extended reals
  a change of float format is the identity, the block product into zero and the einsum are the same sum, and the lane
  sum and the host's sum from zero are the same sum (`0 + s = s`); the three terms are grouped alike on both sides, so
  no law that could fail at an infinity is used and the finiteness of the inputs is never opened.
  The three frames: the kernels' are the generated frames; the reference's is its generated run with the result dropped.
  The idealization rewrote no operation, so `preserves` has nothing to state.
-/
import proofs.«177538_j40733469836023_1_alg».proof.Defs
import proofs.«177538_j40733469836023_1_alg».proof.Proof.Gen.Kernel
import proofs.«177538_j40733469836023_1_alg».proof.Proof.Gen.Kernel.Skeleton
import proofs.«177538_j40733469836023_1_alg».proof.Proof.Gen.Kernel.Launch
import proofs.«177538_j40733469836023_1_alg».proof.Proof.Gen.Kernel.Points
import proofs.«177538_j40733469836023_1_alg».proof.Proof.Gen.Kernel.Frame
import proofs.«177538_j40733469836023_1_alg».proof.Proof.Gen.KernelIdeal
import proofs.«177538_j40733469836023_1_alg».proof.Proof.Gen.KernelIdeal.Skeleton
import proofs.«177538_j40733469836023_1_alg».proof.Proof.Gen.KernelIdeal.Launch
import proofs.«177538_j40733469836023_1_alg».proof.Proof.Gen.KernelIdeal.Points
import proofs.«177538_j40733469836023_1_alg».proof.Proof.Gen.KernelIdeal.Frame
import proofs.«177538_j40733469836023_1_alg».proof.Proof.Gen.ReferenceIdeal
import proofs.«177538_j40733469836023_1_alg».proof.Proof.Gen.ReferenceIdeal.Run
import proofs.«177538_j40733469836023_1_alg».proof.Proof.Gen.ReferenceIdeal.Read
import proofs.«177538_j40733469836023_1_alg».proof.Proof.Gen.Pre_finite_inputs
import proofs.«177538_j40733469836023_1_alg».proof.Proof.KernelRun
import proofs.«177538_j40733469836023_1_alg».proof.Proof.KernelValue
import proofs.«177538_j40733469836023_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the logits array at `Spec.logits` of the float arguments: the kernel's by the fold through its
    two regions read back to the launch memory, the reference's by its stages read at an index; the arguments agree. -/
theorem algebraic : Cert.algebraic_KernelIdeal_ReferenceIdeal := by
  intro m ρ m' ρ' _ hagree
  refine ⟨fun c => Cert.Spec.logits (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.KernelValue.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v6_eq, Cert.ReferenceIdeal.RefValue.result_eq,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
